-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x8 : Shape := ⟨3, ![16, 8, 8]⟩
abbrev S8x8x8 : Shape := ⟨3, ![8, 8, 8]⟩
abbrev S64x256 : Shape := ⟨2, ![64, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x8x8 : S_.BroadcastsInDim S16x8x8 (![] : Fin 0 → Fin S16x8x8.rank)
  reducesTo_S16x8x8_S_d0_1_2 : S16x8x8.ReducesTo [0, 1, 2] S_
  h_S_ : 0 < S_.numel
  bcast_S_S8x8x8 : S_.BroadcastsInDim S8x8x8 (![] : Fin 0 → Fin S8x8x8.rank)
  reducesTo_S8x8x8_S_d0_1_2 : S8x8x8.ReducesTo [0, 1, 2] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16x8x8 .f32) (main_arg1 : FVec F S8x8x8 .f32) (main_arg2 : FVec F S64x256 .f32) (main_arg3 : FVec F S256 .f32) (main_arg4 : FVec F S256x1 .f32) (main_arg5 : FVec F S1 .f32) : IVec S_ 1 :=
  let main_v0 : FVec F S16x8x8 .f32 := Host.absf main_arg0
  let main_cst : FVec F S_ .f32 := constant S_ .f32 0x7F800000#32
  let main_v1 : FVec F S16x8x8 .f32 := broadcastInDim S16x8x8 ![] bcast_S_S16x8x8 main_cst
  let main_v2 : IVec S16x8x8 1 := cmpf .olt main_v0 main_v1
  let main_c : IVec S_ 1 := constantI S_ 1 1#1
  let main_v3 : IVec S_ 1 := (fun x v => Host.reduce IntOp.andi x v reducesTo_S16x8x8_S_d0_1_2 h_S_) main_v2 main_c
  let main_v4 : FVec F S8x8x8 .f32 := Host.absf main_arg1
  let main_cst_0 : FVec F S_ .f32 := constant S_ .f32 0x7F800000#32
  let main_v5 : FVec F S8x8x8 .f32 := broadcastInDim S8x8x8 ![] bcast_S_S8x8x8 main_cst_0
  let main_v6 : IVec S8x8x8 1 := cmpf .olt main_v4 main_v5
  let main_c_1 : IVec S_ 1 := constantI S_ 1 1#1
  let main_v7 : IVec S_ 1 := (fun x v => Host.reduce IntOp.andi x v reducesTo_S8x8x8_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x8x8 : Shape := ⟨3, ![16, 8, 8]⟩
abbrev S8x8x8 : Shape := ⟨3, ![8, 8, 8]⟩
abbrev S64x256 : Shape := ⟨2, ![64, 256]⟩
abbrev S256 : Shape := ⟨1, ![256]⟩
abbrev S256x1 : Shape := ⟨2, ![256, 1]⟩
abbrev S1 : Shape := ⟨1, ![1]⟩
abbrev S16x1x8x8 : Shape := ⟨4, ![16, 1, 8, 8]⟩
abbrev S1x8x8x8 : Shape := ⟨4, ![1, 8, 8, 8]⟩
abbrev S16x8x8x8 : Shape := ⟨4, ![16, 8, 8, 8]⟩
abbrev S128x8x8 : Shape := ⟨3, ![128, 8, 8]⟩
abbrev S128x1x8x8 : Shape := ⟨4, ![128, 1, 8, 8]⟩
abbrev S128x8x8x8 : Shape := ⟨4, ![128, 8, 8, 8]⟩
abbrev S1024x8x8 : Shape := ⟨3, ![1024, 8, 8]⟩
abbrev S1024x1x8x8 : Shape := ⟨4, ![1024, 1, 8, 8]⟩
abbrev S1024x8x8x8 : Shape := ⟨4, ![1024, 8, 8, 8]⟩
abbrev S8192x8x8 : Shape := ⟨3, ![8192, 8, 8]⟩
abbrev S8192x1x8x8 : Shape := ⟨4, ![8192, 1, 8, 8]⟩
abbrev S8192x8x8x8 : Shape := ⟨4, ![8192, 8, 8, 8]⟩
abbrev S65536x8x8 : Shape := ⟨3, ![65536, 8, 8]⟩
abbrev S65536x1x8x8 : Shape := ⟨4, ![65536, 1, 8, 8]⟩
abbrev S65536x8x8x8 : Shape := ⟨4, ![65536, 8, 8, 8]⟩
abbrev S524288x8x8 : Shape := ⟨3, ![524288, 8, 8]⟩
abbrev S524288x64 : Shape := ⟨2, ![524288, 64]⟩
abbrev S1x256 : Shape := ⟨2, ![1, 256]⟩
abbrev S1x1 : Shape := ⟨2, ![1, 1]⟩
abbrev S524288x1 : Shape := ⟨2, ![524288, 1]⟩
abbrev S8192x64 : Shape := ⟨2, ![8192, 64]⟩
abbrev S8192x1 : Shape := ⟨2, ![8192, 1]⟩
abbrev S8192x256 : Shape := ⟨2, ![8192, 256]⟩
abbrev S8192 : Shape := ⟨1, ![8192]⟩
abbrev S524288 : Shape := ⟨1, ![524288]⟩
abbrev S16x8x8x8x8x8 : Shape := ⟨6, ![16, 8, 8, 8, 8, 8]⟩
abbrev S_ : Shape := ⟨0, ![]⟩
abbrev S16x8x8x8x8 : Shape := ⟨5, ![16, 8, 8, 8, 8]⟩
abbrev S16x8 : Shape := ⟨2, ![16, 8]⟩
abbrev S16 : Shape := ⟨1, ![16]⟩

abbrev nBuf : Space → Nat
  | .hbm => 53
  | .vmem => 8
  | .smem => 0
  | _ => 0

abbrev bufTy : (tb : Table) → Fin (tcTables nBuf tb) → BufTy
  | .hbm, ⟨0, _⟩ => ⟨S16x8x8, .f32⟩
  | .hbm, ⟨1, _⟩ => ⟨S8x8x8, .f32⟩
  | .hbm, ⟨2, _⟩ => ⟨S64x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16x1x8x8, .f32⟩
  | .hbm, ⟨7, _⟩ => ⟨S1x8x8x8, .f32⟩
  | .hbm, ⟨8, _⟩ => ⟨S16x8x8x8, .f32⟩
  | .hbm, ⟨9, _⟩ => ⟨S16x8x8x8, .f32⟩
  | .hbm, ⟨10, _⟩ => ⟨S16x8x8x8, .f32⟩
  | .hbm, ⟨11, _⟩ => ⟨S128x8x8, .f32⟩
  | .hbm, ⟨12, _⟩ => ⟨S128x1x8x8, .f32⟩
  | .hbm, ⟨13, _⟩ => ⟨S1x8x8x8, .f32⟩
  | .hbm, ⟨14, _⟩ => ⟨S128x8x8x8, .f32⟩
  | .hbm, ⟨15, _⟩ => ⟨S128x8x8x8, .f32⟩
  | .hbm, ⟨16, _⟩ => ⟨S128x8x8x8, .f32⟩
  | .hbm, ⟨17, _⟩ => ⟨S1024x8x8, .f32⟩
  | .hbm, ⟨18, _⟩ => ⟨S1024x1x8x8, .f32⟩
  | .hbm, ⟨19, _⟩ => ⟨S1x8x8x8, .f32⟩
  | .hbm, ⟨20, _⟩ => ⟨S1024x8x8x8, .f32⟩
  | .hbm, ⟨21, _⟩ => ⟨S1024x8x8x8, .f32⟩
  | .hbm, ⟨22, _⟩ => ⟨S1024x8x8x8, .f32⟩
  | .hbm, ⟨23, _⟩ => ⟨S8192x8x8, .f32⟩
  | .hbm, ⟨24, _⟩ => ⟨S8192x1x8x8, .f32⟩
  | .hbm, ⟨25, _⟩ => ⟨S1x8x8x8, .f32⟩
  | .hbm, ⟨26, _⟩ => ⟨S8192x8x8x8, .f32⟩
  | .hbm, ⟨27, _⟩ => ⟨S8192x8x8x8, .f32⟩
  | .hbm, ⟨28, _⟩ => ⟨S8192x8x8x8, .f32⟩
  | .hbm, ⟨29, _⟩ => ⟨S65536x8x8, .f32⟩
  | .hbm, ⟨30, _⟩ => ⟨S65536x1x8x8, .f32⟩
  | .hbm, ⟨31, _⟩ => ⟨S1x8x8x8, .f32⟩
  | .hbm, ⟨32, _⟩ => ⟨S65536x8x8x8, .f32⟩
  | .hbm, ⟨33, _⟩ => ⟨S65536x8x8x8, .f32⟩
  | .hbm, ⟨34, _⟩ => ⟨S65536x8x8x8, .f32⟩
  | .hbm, ⟨35, _⟩ => ⟨S524288x8x8, .f32⟩
  | .hbm, ⟨36, _⟩ => ⟨S524288x64, .f32⟩
  | .hbm, ⟨37, _⟩ => ⟨S1x256, .f32⟩
  | .hbm, ⟨38, _⟩ => ⟨S1x256, .f32⟩
  | .hbm, ⟨39, _⟩ => ⟨S1x1, .f32⟩
  | .hbm, ⟨40, _⟩ => ⟨S524288x1, .f32⟩
  | .hbm, ⟨41, _⟩ => ⟨S524288, .f32⟩
  | .hbm, ⟨42, _⟩ => ⟨S16x8x8x8x8x8, .f32⟩
  | .hbm, ⟨43, _⟩ => ⟨S_, .f32⟩
  | .hbm, ⟨44, _⟩ => ⟨S16x8x8x8x8, .f32⟩
  | .hbm, ⟨45, _⟩ => ⟨S_, .f32⟩
  | .hbm, ⟨46, _⟩ => ⟨S16x8x8x8, .f32⟩
  | .hbm, ⟨47, _⟩ => ⟨S_, .f32⟩
  | .hbm, ⟨48, _⟩ => ⟨S16x8x8, .f32⟩
  | .hbm, ⟨49, _⟩ => ⟨S_, .f32⟩
  | .hbm, ⟨50, _⟩ => ⟨S16x8, .f32⟩
  | .hbm, ⟨51, _⟩ => ⟨S_, .f32⟩
  | .hbm, ⟨52, _⟩ => ⟨S16, .f32⟩
  | .local _ .vmem, ⟨0, _⟩ => ⟨S8192x64, .f32⟩
  | .local _ .vmem, ⟨1, _⟩ => ⟨S8192x64, .f32⟩
  | .local _ .vmem, ⟨2, _⟩ => ⟨S64x256, .f32⟩
  | .local _ .vmem, ⟨3, _⟩ => ⟨S1x256, .f32⟩
  | .local _ .vmem, ⟨4, _⟩ => ⟨S1x256, .f32⟩
  | .local _ .vmem, ⟨5, _⟩ => ⟨S1x1, .f32⟩
  | .local _ .vmem, ⟨6, _⟩ => ⟨S8192x1, .f32⟩
  | .local _ .vmem, ⟨7, _⟩ => ⟨S8192x1, .f32⟩
  | _, _ => ⟨S16x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_v37 : Ref sig .tc := ⟨.hbm, 44, rfl⟩
abbrev main_cst_0 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S16x8x8_S16x1x8x8_0_2_3 : S16x8x8.BroadcastsInDim S16x1x8x8 (![0, 2, 3] : Fin 3 → Fin S16x1x8x8.rank)
  bcast_S8x8x8_S1x8x8x8_1_2_3 : S8x8x8.BroadcastsInDim S1x8x8x8 (![1, 2, 3] : Fin 3 → Fin S1x8x8x8.rank)
  bcast_S16x1x8x8_S16x8x8x8_0_1_2_3 : S16x1x8x8.BroadcastsInDim S16x8x8x8 (![0, 1, 2, 3] : Fin 4 → Fin S16x8x8x8.rank)
  bcast_S1x8x8x8_S16x8x8x8_0_1_2_3 : S1x8x8x8.BroadcastsInDim S16x8x8x8 (![0, 1, 2, 3] : Fin 4 → Fin S16x8x8x8.rank)
  shapeCasts_S16x8x8x8_S128x8x8 : S16x8x8x8.ShapeCasts S128x8x8
  bcast_S128x8x8_S128x1x8x8_0_2_3 : S128x8x8.BroadcastsInDim S128x1x8x8 (![0, 2, 3] : Fin 3 → Fin S128x1x8x8.rank)
  bcast_S128x1x8x8_S128x8x8x8_0_1_2_3 : S128x1x8x8.BroadcastsInDim S128x8x8x8 (![0, 1, 2, 3] : Fin 4 → Fin S128x8x8x8.rank)
  bcast_S1x8x8x8_S128x8x8x8_0_1_2_3 : S1x8x8x8.BroadcastsInDim S128x8x8x8 (![0, 1, 2, 3] : Fin 4 → Fin S128x8x8x8.rank)
  shapeCasts_S128x8x8x8_S1024x8x8 : S128x8x8x8.ShapeCasts S1024x8x8
  bcast_S1024x8x8_S1024x1x8x8_0_2_3 : S1024x8x8.BroadcastsInDim S1024x1x8x8 (![0, 2, 3] : Fin 3 → Fin S1024x1x8x8.rank)
  bcast_S1024x1x8x8_S1024x8x8x8_0_1_2_3 : S1024x1x8x8.BroadcastsInDim S1024x8x8x8 (![0, 1, 2, 3] : Fin 4 → Fin S1024x8x8x8.rank)
  bcast_S1x8x8x8_S1024x8x8x8_0_1_2_3 : S1x8x8x8.BroadcastsInDim S1024x8x8x8 (![0, 1, 2, 3] : Fin 4 → Fin S1024x8x8x8.rank)
  shapeCasts_S1024x8x8x8_S8192x8x8 : S1024x8x8x8.ShapeCasts S8192x8x8
  bcast_S8192x8x8_S8192x1x8x8_0_2_3 : S8192x8x8.BroadcastsInDim S8192x1x8x8 (![0, 2, 3] : Fin 3 → Fin S8192x1x8x8.rank)
  bcast_S8192x1x8x8_S8192x8x8x8_0_1_2_3 : S8192x1x8x8.BroadcastsInDim S8192x8x8x8 (![0, 1, 2, 3] : Fin 4 → Fin S8192x8x8x8.rank)
  bcast_S1x8x8x8_S8192x8x8x8_0_1_2_3 : S1x8x8x8.BroadcastsInDim S8192x8x8x8 (![0, 1, 2, 3] : Fin 4 → Fin S8192x8x8x8.rank)
  shapeCasts_S8192x8x8x8_S65536x8x8 : S8192x8x8x8.ShapeCasts S65536x8x8
  bcast_S65536x8x8_S65536x1x8x8_0_2_3 : S65536x8x8.BroadcastsInDim S65536x1x8x8 (![0, 2, 3] : Fin 3 → Fin S65536x1x8x8.rank)
  bcast_S65536x1x8x8_S65536x8x8x8_0_1_2_3 : S65536x1x8x8.BroadcastsInDim S65536x8x8x8 (![0, 1, 2, 3] : Fin 4 → Fin S65536x8x8x8.rank)
  bcast_S1x8x8x8_S65536x8x8x8_0_1_2_3 : S1x8x8x8.BroadcastsInDim S65536x8x8x8 (![0, 1, 2, 3] : Fin 4 → Fin S65536x8x8x8.rank)
  shapeCasts_S65536x8x8x8_S524288x8x8 : S65536x8x8x8.ShapeCasts S524288x8x8
  shapeCasts_S524288x8x8_S524288x64 : S524288x8x8.ShapeCasts S524288x64
  shapeCasts_S256_S1x256 : S256.ShapeCasts S1x256
  shapeCasts_S256x1_S1x256 : S256x1.ShapeCasts S1x256
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  reduces_S8192x256_S8192 : S8192x256.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S524288x1_S524288 : S524288x1.ShapeCasts S524288
  shapeCasts_S524288_S16x8x8x8x8x8 : S524288.ShapeCasts S16x8x8x8x8x8
  reducesTo_S16x8x8x8x8x8_S16x8x8x8x8_d5 : S16x8x8x8x8x8.ReducesTo [5] S16x8x8x8x8
  h_S_ : 0 < S_.numel
  reducesTo_S16x8x8x8x8_S16x8x8x8_d4 : S16x8x8x8x8.ReducesTo [4] S16x8x8x8
  reducesTo_S16x8x8x8_S16x8x8_d3 : S16x8x8x8.ReducesTo [3] S16x8x8
  reducesTo_S16x8x8_S16x8_d2 : S16x8x8.ReducesTo [2] S16x8
  reducesTo_S16x8_S16_d1 : S16x8.ReducesTo [1] S16
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S524288x64.size a
  hwx0_0 : ∀ i : grid0.Coords, EltTy.bits .f32 = 32 ∨ (Rect.block (s := S524288x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x1.size a ≤ S524288x1.size a
  hwx0_5 : ∀ i : grid0.Coords, EltTy.bits .f32 = 32 ∨ (Rect.block (s := S524288x1) S8192x1.size (cc0_transform_5 i) (hinb0_5 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_v30) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S8192x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8x8 : Shape := ⟨3, ![16, 8, 8]⟩
abbrev S8x8x8 : Shape := ⟨3, ![8, 8, 8]⟩
abbrev S64x256 : Shape := ⟨2, ![64, 256]⟩
abbrev S256 : Shape := ⟨1, ![256]⟩
abbrev S256x1 : Shape := ⟨2, ![256, 1]⟩
abbrev S1 : Shape := ⟨1, ![1]⟩
abbrev S16x1x8x8 : Shape := ⟨4, ![16, 1, 8, 8]⟩
abbrev S1x8x8x8 : Shape := ⟨4, ![1, 8, 8, 8]⟩
abbrev S16x8x8x8 : Shape := ⟨4, ![16, 8, 8, 8]⟩
abbrev S128x8x8 : Shape := ⟨3, ![128, 8, 8]⟩
abbrev S128x1x8x8 : Shape := ⟨4, ![128, 1, 8, 8]⟩
abbrev S128x8x8x8 : Shape := ⟨4, ![128, 8, 8, 8]⟩
abbrev S1024x8x8 : Shape := ⟨3, ![1024, 8, 8]⟩
abbrev S1024x1x8x8 : Shape := ⟨4, ![1024, 1, 8, 8]⟩
abbrev S1024x8x8x8 : Shape := ⟨4, ![1024, 8, 8, 8]⟩
abbrev S8192x8x8 : Shape := ⟨3, ![8192, 8, 8]⟩
abbrev S8192x1x8x8 : Shape := ⟨4, ![8192, 1, 8, 8]⟩
abbrev S8192x8x8x8 : Shape := ⟨4, ![8192, 8, 8, 8]⟩
abbrev S65536x8x8 : Shape := ⟨3, ![65536, 8, 8]⟩
abbrev S65536x1x8x8 : Shape := ⟨4, ![65536, 1, 8, 8]⟩
abbrev S65536x8x8x8 : Shape := ⟨4, ![65536, 8, 8, 8]⟩
abbrev S524288x8x8 : Shape := ⟨3, ![524288, 8, 8]⟩
abbrev S524288x64 : Shape := ⟨2, ![524288, 64]⟩
abbrev S524288x256 : Shape := ⟨2, ![524288, 256]⟩
abbrev S1x256 : Shape := ⟨2, ![1, 256]⟩
abbrev S524288x1 : Shape := ⟨2, ![524288, 1]⟩
abbrev S1x1 : Shape := ⟨2, ![1, 1]⟩
abbrev S524288 : Shape := ⟨1, ![524288]⟩
abbrev S16x8x8x8x8x8 : Shape := ⟨6, ![16, 8, 8, 8, 8, 8]⟩
abbrev S_ : Shape := ⟨0, ![]⟩
abbrev S16x8x8x8x8 : Shape := ⟨5, ![16, 8, 8, 8, 8]⟩
abbrev S16x8 : Shape := ⟨2, ![16, 8]⟩
abbrev S16 : Shape := ⟨1, ![16]⟩

abbrev nBuf : Space → Nat
  | .hbm => 58
  | .vmem => 0
  | .smem => 0
  | _ => 0

abbrev bufTy : (tb : Table) → Fin (tcTables nBuf tb) → BufTy
  | .hbm, ⟨0, _⟩ => ⟨S16x8x8, .f32⟩
  | .hbm, ⟨1, _⟩ => ⟨S8x8x8, .f32⟩
  | .hbm, ⟨2, _⟩ => ⟨S64x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16x1x8x8, .f32⟩
  | .hbm, ⟨7, _⟩ => ⟨S1x8x8x8, .f32⟩
  | .hbm, ⟨8, _⟩ => ⟨S16x8x8x8, .f32⟩
  | .hbm, ⟨9, _⟩ => ⟨S16x8x8x8, .f32⟩
  | .hbm, ⟨10, _⟩ => ⟨S16x8x8x8, .f32⟩
  | .hbm, ⟨11, _⟩ => ⟨S128x8x8, .f32⟩
  | .hbm, ⟨12, _⟩ => ⟨S128x1x8x8, .f32⟩
  | .hbm, ⟨13, _⟩ => ⟨S1x8x8x8, .f32⟩
  | .hbm, ⟨14, _⟩ => ⟨S128x8x8x8, .f32⟩
  | .hbm, ⟨15, _⟩ => ⟨S128x8x8x8, .f32⟩
  | .hbm, ⟨16, _⟩ => ⟨S128x8x8x8, .f32⟩
  | .hbm, ⟨17, _⟩ => ⟨S1024x8x8, .f32⟩
  | .hbm, ⟨18, _⟩ => ⟨S1024x1x8x8, .f32⟩
  | .hbm, ⟨19, _⟩ => ⟨S1x8x8x8, .f32⟩
  | .hbm, ⟨20, _⟩ => ⟨S1024x8x8x8, .f32⟩
  | .hbm, ⟨21, _⟩ => ⟨S1024x8x8x8, .f32⟩
  | .hbm, ⟨22, _⟩ => ⟨S1024x8x8x8, .f32⟩
  | .hbm, ⟨23, _⟩ => ⟨S8192x8x8, .f32⟩
  | .hbm, ⟨24, _⟩ => ⟨S8192x1x8x8, .f32⟩
  | .hbm, ⟨25, _⟩ => ⟨S1x8x8x8, .f32⟩
  | .hbm, ⟨26, _⟩ => ⟨S8192x8x8x8, .f32⟩
  | .hbm, ⟨27, _⟩ => ⟨S8192x8x8x8, .f32⟩
  | .hbm, ⟨28, _⟩ => ⟨S8192x8x8x8, .f32⟩
  | .hbm, ⟨29, _⟩ => ⟨S65536x8x8, .f32⟩
  | .hbm, ⟨30, _⟩ => ⟨S65536x1x8x8, .f32⟩
  | .hbm, ⟨31, _⟩ => ⟨S1x8x8x8, .f32⟩
  | .hbm, ⟨32, _⟩ => ⟨S65536x8x8x8, .f32⟩
  | .hbm, ⟨33, _⟩ => ⟨S65536x8x8x8, .f32⟩
  | .hbm, ⟨34, _⟩ => ⟨S65536x8x8x8, .f32⟩
  | .hbm, ⟨35, _⟩ => ⟨S524288x8x8, .f32⟩
  | .hbm, ⟨36, _⟩ => ⟨S524288x64, .f32⟩
  | .hbm, ⟨37, _⟩ => ⟨S524288x256, .f32⟩
  | .hbm, ⟨38, _⟩ => ⟨S1x256, .f32⟩
  | .hbm, ⟨39, _⟩ => ⟨S524288x256, .f32⟩
  | .hbm, ⟨40, _⟩ => ⟨S524288x256, .f32⟩
  | .hbm, ⟨41, _⟩ => ⟨S524288x256, .f32⟩
  | .hbm, ⟨42, _⟩ => ⟨S524288x1, .f32⟩
  | .hbm, ⟨43, _⟩ => ⟨S1x1, .f32⟩
  | .hbm, ⟨44, _⟩ => ⟨S524288x1, .f32⟩
  | .hbm, ⟨45, _⟩ => ⟨S524288x1, .f32⟩
  | .hbm, ⟨46, _⟩ => ⟨S524288, .f32⟩
  | .hbm, ⟨47, _⟩ => ⟨S16x8x8x8x8x8, .f32⟩
  | .hbm, ⟨48, _⟩ => ⟨S_, .f32⟩
  | .hbm, ⟨49, _⟩ => ⟨S16x8x8x8x8, .f32⟩
  | .hbm, ⟨50, _⟩ => ⟨S_, .f32⟩
  | .hbm, ⟨51, _⟩ => ⟨S16x8x8x8, .f32⟩
  | .hbm, ⟨52, _⟩ => ⟨S_, .f32⟩
  | .hbm, ⟨53, _⟩ => ⟨S16x8x8, .f32⟩
  | .hbm, ⟨54, _⟩ => ⟨S_, .f32⟩
  | .hbm, ⟨55, _⟩ => ⟨S16x8, .f32⟩
  | .hbm, ⟨56, _⟩ => ⟨S_, .f32⟩
  | .hbm, ⟨57, _⟩ => ⟨S16, .f32⟩
  | _, _ => ⟨S16x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_cst_1 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩

abbrev nD : Nat := 1
abbrev τ : Topo := Topo.v7x

variable {F : FTy → Type} [FloatOps F]

class Facts₀ : Prop where
  bcast_S16x8x8_S16x1x8x8_0_2_3 : S16x8x8.BroadcastsInDim S16x1x8x8 (![0, 2, 3] : Fin 3 → Fin S16x1x8x8.rank)
  bcast_S8x8x8_S1x8x8x8_1_2_3 : S8x8x8.BroadcastsInDim S1x8x8x8 (![1, 2, 3] : Fin 3 → Fin S1x8x8x8.rank)
  bcast_S16x1x8x8_S16x8x8x8_0_1_2_3 : S16x1x8x8.BroadcastsInDim S16x8x8x8 (![0, 1, 2, 3] : Fin 4 → Fin S16x8x8x8.rank)
  bcast_S1x8x8x8_S16x8x8x8_0_1_2_3 : S1x8x8x8.BroadcastsInDim S16x8x8x8 (![0, 1, 2, 3] : Fin 4 → Fin S16x8x8x8.rank)
  shapeCasts_S16x8x8x8_S128x8x8 : S16x8x8x8.ShapeCasts S128x8x8
  bcast_S128x8x8_S128x1x8x8_0_2_3 : S128x8x8.BroadcastsInDim S128x1x8x8 (![0, 2, 3] : Fin 3 → Fin S128x1x8x8.rank)
  bcast_S128x1x8x8_S128x8x8x8_0_1_2_3 : S128x1x8x8.BroadcastsInDim S128x8x8x8 (![0, 1, 2, 3] : Fin 4 → Fin S128x8x8x8.rank)
  bcast_S1x8x8x8_S128x8x8x8_0_1_2_3 : S1x8x8x8.BroadcastsInDim S128x8x8x8 (![0, 1, 2, 3] : Fin 4 → Fin S128x8x8x8.rank)
  shapeCasts_S128x8x8x8_S1024x8x8 : S128x8x8x8.ShapeCasts S1024x8x8
  bcast_S1024x8x8_S1024x1x8x8_0_2_3 : S1024x8x8.BroadcastsInDim S1024x1x8x8 (![0, 2, 3] : Fin 3 → Fin S1024x1x8x8.rank)
  bcast_S1024x1x8x8_S1024x8x8x8_0_1_2_3 : S1024x1x8x8.BroadcastsInDim S1024x8x8x8 (![0, 1, 2, 3] : Fin 4 → Fin S1024x8x8x8.rank)
  bcast_S1x8x8x8_S1024x8x8x8_0_1_2_3 : S1x8x8x8.BroadcastsInDim S1024x8x8x8 (![0, 1, 2, 3] : Fin 4 → Fin S1024x8x8x8.rank)
  shapeCasts_S1024x8x8x8_S8192x8x8 : S1024x8x8x8.ShapeCasts S8192x8x8
  bcast_S8192x8x8_S8192x1x8x8_0_2_3 : S8192x8x8.BroadcastsInDim S8192x1x8x8 (![0, 2, 3] : Fin 3 → Fin S8192x1x8x8.rank)
  bcast_S8192x1x8x8_S8192x8x8x8_0_1_2_3 : S8192x1x8x8.BroadcastsInDim S8192x8x8x8 (![0, 1, 2, 3] : Fin 4 → Fin S8192x8x8x8.rank)
  bcast_S1x8x8x8_S8192x8x8x8_0_1_2_3 : S1x8x8x8.BroadcastsInDim S8192x8x8x8 (![0, 1, 2, 3] : Fin 4 → Fin S8192x8x8x8.rank)
  shapeCasts_S8192x8x8x8_S65536x8x8 : S8192x8x8x8.ShapeCasts S65536x8x8
  bcast_S65536x8x8_S65536x1x8x8_0_2_3 : S65536x8x8.BroadcastsInDim S65536x1x8x8 (![0, 2, 3] : Fin 3 → Fin S65536x1x8x8.rank)
  bcast_S65536x1x8x8_S65536x8x8x8_0_1_2_3 : S65536x1x8x8.BroadcastsInDim S65536x8x8x8 (![0, 1, 2, 3] : Fin 4 → Fin S65536x8x8x8.rank)
  bcast_S1x8x8x8_S65536x8x8x8_0_1_2_3 : S1x8x8x8.BroadcastsInDim S65536x8x8x8 (![0, 1, 2, 3] : Fin 4 → Fin S65536x8x8x8.rank)
  shapeCasts_S65536x8x8x8_S524288x8x8 : S65536x8x8x8.ShapeCasts S524288x8x8
  shapeCasts_S524288x8x8_S524288x64 : S524288x8x8.ShapeCasts S524288x64
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  shapeCasts_S524288_S16x8x8x8x8x8 : S524288.ShapeCasts S16x8x8x8x8x8
  reducesTo_S16x8x8x8x8x8_S16x8x8x8x8_d5 : S16x8x8x8x8x8.ReducesTo [5] S16x8x8x8x8
  h_S_ : 0 < S_.numel
  reducesTo_S16x8x8x8x8_S16x8x8x8_d4 : S16x8x8x8x8.ReducesTo [4] S16x8x8x8
  reducesTo_S16x8x8x8_S16x8x8_d3 : S16x8x8x8.ReducesTo [3] S16x8x8
  reducesTo_S16x8x8_S16x8_d2 : S16x8x8.ReducesTo [2] S16x8
  reducesTo_S16x8_S16_d1 : S16x8.ReducesTo [1] S16
  dot_S524288x64_S64x256_S524288x256_1_0_0_1_n_n_wf : DotDims.WF S524288x64 S64x256 S524288x256 [1] [0] [0] [1] [] []
  dot_S524288x256_S256x1_S524288x1_1_0_0_1_n_n_wf : DotDims.WF S524288x256 S256x1 S524288x1 [1] [0] [0] [1] [] []

variable [Facts₀]

def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LeafSpec.lean ====
/-
  The value of one leaf of the game tree.

  A leaf's board, flattened, is a row s of 64 numbers, row r of the matrix S of all leaf boards. The evaluator is a
  two-layer network with one output:

      v(r) = Σ_c tanh( Σ_j S[r, j] · W1[j, c] + b1_c ) · w2_c + b2,

  a hidden layer of 256 tanh units, then a weighted sum of the hidden units plus a bias. The first-layer bias b1
  and the second-layer weights w2 are taken as functions of the hidden unit's number and b2 as a number, so the one
  expression serves however those small arrays are laid out ([256], [1, 256], [256, 1]; [1], [1, 1]).
  Everything is over the extended reals: sums and products are the exact ones.
-/
import Idealize.ShloMosaic.PureOps.Ideal.Laws
import Idealize.ShloMosaic.Lib.ValueIdx
import Idealize.ShloMosaic.Lib.Pipeline.Value

noncomputable section

open scoped BigOperators

namespace Cert.LeafEval

open Idealize.ShloMosaic Idealize.ShloMosaic.ValueIdx

/-- The evaluator's value at row r of the board matrix S. -/
def leaf {n : ℕ} (S : (⟨2, ![n, 64]⟩ : Shape).Idx → EReal) (W1 : (⟨2, ![64, 256]⟩ : Shape).Idx → EReal)
    (b1 w2 : Fin 256 → EReal) (b2 : EReal) (r : Fin n) : EReal :=
  (∑ c : Fin 256, Ideal.tanh ((∑ j : Fin 64, S (ix2 r j) * W1 (ix2 j c)) + b1 c) * w2 c) + b2

/-- The value at row r depends on row r of the board matrix only: a block of rows cut from a larger matrix gives, at
    its row p, the value the larger matrix gives at the row p was cut from. -/
theorem leaf_rows {n n' : ℕ} (S : (⟨2, ![n, 64]⟩ : Shape).Idx → EReal) (S' : (⟨2, ![n', 64]⟩ : Shape).Idx → EReal)
    (W1 : (⟨2, ![64, 256]⟩ : Shape).Idx → EReal) (b1 w2 : Fin 256 → EReal) (b2 : EReal) (r : Fin n) (r' : Fin n')
    (h : ∀ j : Fin 64, S (ix2 r j) = S' (ix2 r' j)) : leaf S W1 b1 w2 b2 r = leaf S' W1 b1 w2 b2 r' := by
  unfold leaf
  simp only [h]

/-- A sum along the columns of an m×k matrix, accumulated from zero, read at row r: the sum of the row's entries. -/
theorem rowSum_apply {m k : ℕ} (hred : (⟨2, ![m, k]⟩ : Shape).Reduces [1] ⟨1, ![m]⟩) (hfmt : FKind.Formats FTy.f32)
    (hacc : (0x00000000#32 : BitVec 32) = 0x00000000#32)
    (x : FVec Ideal ⟨2, ![m, k]⟩ .f32) (r : Fin m) :
    multiReduction .add [1] ⟨1, ![m]⟩ x 0x00000000#32 hred hfmt hacc (ix1 r) = ∑ c : Fin k, x (ix2 r c) := by
  refine (Ideal.multiReduction_add_single x 0x00000000#32 hred hfmt hacc (ix1 r)).trans ?_
  refine Finset.sum_congr rfl fun c _ => congrArg x ?_
  funext a; apply Fin.ext
  fin_cases a <;> rfl

/-- A column of n entries laid out as one row: entry (0, k) of the row is entry (k, 0) of the column. -/
theorem columnAsRow_apply {α : Type} {n : ℕ} (x : (⟨2, ![n, 1]⟩ : Shape).Idx → α)
    (h : (⟨2, ![n, 1]⟩ : Shape).ShapeCasts ⟨2, ![1, n]⟩) (k : Fin n) :
    shapeCast ⟨2, ![1, n]⟩ x h (ix2 (0 : Fin 1) k) = x (ix2 k (0 : Fin 1)) :=
  shapeCast_apply x h _ _ (by
    rw [Shape.rowMajor_val_two, Shape.rowMajor_val_two]
    show k.val * 1 + 0 = 0 * n + k.val
    omega)

end Cert.LeafEval

end
-- ==== Proof.KernelLeaf.lean ====
/-
  What the kernel's body writes, read at an index.

  At one grid point the body holds a block x0 of 8192 leaf boards (8192 × 64), the whole first-layer matrix x1
  (64 × 256), the first-layer bias x2 and the second-layer weights x3 as single rows (1 × 256), and the output bias
  x4 (1 × 1). It stores an 8192 × 1 column. Over the extended reals the narrowing of the matrix unit's operands is
  the identity and the product accumulated from zero is the plain sum, so entry (p, 0) of the stored column is the
  leaf value of row p of the block:

      Σ_c tanh( Σ_j x0[p, j] · x1[j, c] + x2[0, c] ) · x3[0, c] + x4[0, 0].
-/
import proofs.«137771_j14585708937680_1_alg».proof.Proof.Gen.KernelIdeal.Skeleton
import proofs.«137771_j14585708937680_1_alg».proof.Proof.LibRowLayers
import proofs.«137771_j14585708937680_1_alg».proof.Proof.LeafSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.LeafBlock

open Cert.KernelIdeal Cert.KernelIdeal.Gen Idealize.ShloMosaic Idealize.ShloMosaic.ValueIdx Cert.LeafEval

/-! ## The matrix unit's product: which entries of the operands meet at output (p, c) and contraction step k -/

theorem lhs_hidden_0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide), dif_pos (show (0 : Fin S8192x64.rank) ∈ dot_S8192x64_S64x256_S8192x256_1_0_0_1_n_n.lhsNonContracting by decide)]
  rfl
theorem lhs_hidden_1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q
theorem rhs_hidden_0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q
theorem rhs_hidden_1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide), dif_pos (show (1 : Fin S64x256.rank) ∈ dot_S8192x64_S64x256_S8192x256_1_0_0_1_n_n.rhsNonContracting by decide)]
  rfl

/-- The block of boards times the first-layer matrix, accumulated from zero, at (p, c): row p of the block against
    column c of the matrix. -/
theorem hidden_pre_apply {φ₁ φ₂ : FTy} (a : FVec Ideal S8192x64 φ₁) (b : FVec Ideal S64x256 φ₂) (p : Fin 8192) (c : Fin 256) :
    matmul dot_S8192x64_S64x256_S8192x256_1_0_0_1_n_n none a b (constant S8192x256 .f32 0x00000000#32) (ix2 p c)
      = ∑ j : Fin 64, a (ix2 p j) * b (ix2 j c) := by
  refine (Ideal.matmul_constant_zero_apply dot_S8192x64_S64x256_S8192x256_1_0_0_1_n_n none a b (ix2 p c)).trans ?_
  rw [← Equiv.sum_comp (contrEquiv1 dot_S8192x64_S64x256_S8192x256_1_0_0_1_n_n 64 rfl rfl).symm]
  refine Finset.sum_congr rfl fun k _ => ?_
  have hk := contrEquiv1_symm_val dot_S8192x64_S64x256_S8192x256_1_0_0_1_n_n 64 rfl rfl k
  have el : dot_S8192x64_S64x256_S8192x256_1_0_0_1_n_n.lhsIdx (ix2 p c) ((contrEquiv1 dot_S8192x64_S64x256_S8192x256_1_0_0_1_n_n 64 rfl rfl).symm k) = ix2 p k := funext fun ax => Fin.ext (by
    match ax with
    | ⟨0, _⟩ => exact lhs_hidden_0 _ _
    | ⟨1, _⟩ => exact (lhs_hidden_1 _ _).trans hk)
  have er : dot_S8192x64_S64x256_S8192x256_1_0_0_1_n_n.rhsIdx (ix2 p c) ((contrEquiv1 dot_S8192x64_S64x256_S8192x256_1_0_0_1_n_n 64 rfl rfl).symm k) = ix2 k c := funext fun ax => Fin.ext (by
    match ax with
    | ⟨0, _⟩ => exact (rhs_hidden_0 _ _).trans hk
    | ⟨1, _⟩ => exact rhs_hidden_1 _ _)
  rw [el, er]

/-! ## The stored column at (p, q) -/

/-- Entry (p, q) of what the body stores is the leaf value of row p of the block of boards. -/
theorem pay_apply (x0 : Vec Ideal S8192x64 .f32) (x1 : Vec Ideal S64x256 .f32) (x2 x3 : Vec Ideal S1x256 .f32)
    (x4 : Vec Ideal S1x1 .f32) (p : Fin 8192) (q : Fin 1) :
    k0_pay1 (F := Ideal) x0 x1 x2 x3 x4 (ix2 p q)
      = leaf x0 x1 (fun c => x2 (ix2 (0 : Fin 1) c)) (fun c => x3 (ix2 (0 : Fin 1) c)) (x4 (ix2 (0 : Fin 1) (0 : Fin 1))) p := by
  obtain rfl : q = 0 := Subsingleton.elim _ _
  unfold k0_pay1 leaf
  simp only [shapeCast_self]
  rw [addf_apply, RowLayers.column_apply, rowSum_apply, broadcastTo_1b_ab_apply]
  refine congrArg (· + x4 (ix2 (0 : Fin 1) (0 : Fin 1))) (Finset.sum_congr rfl fun c _ => ?_)
  rw [mulf_apply, broadcastTo_1b_ab_apply]
  refine congrArg (· * x3 (ix2 (0 : Fin 1) c)) ?_
  show Ideal.tanh (_ + _) = Ideal.tanh (_ + _)
  rw [broadcastTo_1b_ab_apply, hidden_pre_apply]
  rfl

end Cert.KernelIdeal.LeafBlock

end
-- ==== Proof.KernelArray.lean ====
/-
  The kernel's output array after the run: every leaf's value.

  The grid has 64 points; point t works on rows t·8192 … t·8192 + 8191 of the board matrix (its first window's block),
  on the whole of the four small arrays, and writes back rows t·8192 … t·8192 + 8191 of the 524288 × 1 output. Since a
  leaf's value reads its own row of the board matrix only, what point t writes back is block t of ONE array, the
  array of all leaf values; the 64 blocks tile the output, so after the run the output IS that array.
-/
import proofs.«137771_j14585708937680_1_alg».proof.Proof.Gen.KernelIdeal.Frame
import proofs.«137771_j14585708937680_1_alg».proof.Proof.KernelLeaf
import proofs.«137771_j14585708937680_1_alg».proof.Proof.LeafSpec
import Idealize.ShloMosaic.Lib.Pipeline.Value
import Idealize.ShloMosaic.Lib.ValueIdx

set_option maxRecDepth 16384

noncomputable section

open scoped BigOperators

namespace Cert.KernelIdeal.LeafArray

open Cert.KernelIdeal Cert.KernelIdeal.Gen Idealize.ShloMosaic Idealize.ShloMosaic.TcCoe Idealize.ShloMosaic.ValueIdx Cert.LeafEval
open Idealize.SL Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- Every leaf's value, from the board matrix, the first-layer matrix, and the three small arrays as single rows. -/
def leaves (S : S524288x64.Idx → EReal) (W1 : S64x256.Idx → EReal) (b1r w2r : S1x256.Idx → EReal) (b2r : S1x1.Idx → EReal) :
    S524288x1.Idx → EReal :=
  fun i => leaf S W1 (fun c => b1r (ix2 (0 : Fin 1) c)) (fun c => w2r (ix2 (0 : Fin 1) c)) (b2r (ix2 (0 : Fin 1) (0 : Fin 1)))
    ⟨(i 0).val, idx2_lt0 i⟩

/-- One grid point: if row p of the block of boards is row (i 0) of the board matrix and the four small blocks are the
    small arrays, the body's stored column at (p, q) is the leaf value at i. -/
theorem point_eq (S : S524288x64.Idx → EReal) (W1 : S64x256.Idx → EReal) (b1r w2r : S1x256.Idx → EReal) (b2r : S1x1.Idx → EReal)
    (x0 : Vec Ideal S8192x64 .f32) (x1 : Vec Ideal S64x256 .f32) (x2 x3 : Vec Ideal S1x256 .f32) (x4 : Vec Ideal S1x1 .f32)
    (p : Fin 8192) (q : Fin 1) (i : S524288x1.Idx)
    (h0 : ∀ k : Fin 64, x0 (ix2 p k) = S (ix2 ⟨(i 0).val, idx2_lt0 i⟩ k))
    (h1 : x1 = W1) (h2 : x2 = b1r) (h3 : x3 = w2r) (h4 : x4 = b2r) :
    k0_pay1 (F := Ideal) x0 x1 x2 x3 x4 (ix2 p q) = leaves S W1 b1r w2r b2r i := by
  subst h1 h2 h3 h4
  rw [LeafBlock.pay_apply]
  unfold leaves
  exact leaf_rows _ _ _ _ _ _ _ _ h0

/-- The printed index maps over the grid: the board window and the output window move together, one block a point;
    the four small windows stay at block zero. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 64 row blocks of the output is some point's. -/
theorem idx_onto : ∀ b : Fin 64, ∃ t : Fin cfg0.N, win0_5.index t = ![b.val, 0] :=
  (by decide +kernel : ∀ b : Fin 64, ∃ t : Fin grid0.N, win0_5.index t = ![b.val, 0])

/-- WHAT POINT t WRITES BACK is block t of the array of all leaf values. -/
theorem flushed_eq (c : Dev nD) (t : Fin cfg0.N) :
    (dats m 0 c).flushed 5 t = ((cfg0.win 5).blk t).view.read (Elt Ideal)
      (leaves (V m c main_v30) (V m c main_arg2) (V m c main_v31) (V m c main_v32) (V m c main_v33)) := by
  show (cfg0.win 5).cut (grid0.coords t) ((dats m 0 c).after 5 t) = _
  rw [after0_5]
  unfold out0_5
  rw [View.canon_unit_zero zero_offsets]
  simp only [View.ld_unit_zero (S := S8192x64) zero_offsets, View.ld_unit_zero (S := S64x256) zero_offsets,
    View.ld_unit_zero (S := S1x256) zero_offsets, View.ld_unit_zero (S := S1x1) zero_offsets]
  obtain ⟨e00, e01, e10, e11, e20, e21, e30, e31, e40, e41, e51⟩ := idx_facts t
  funext j
  obtain ⟨p, q, rfl⟩ : ∃ (p : Fin 8192) (q : Fin 1), j = ix2 p q := ⟨j 0, j 1, eq_ix2 j⟩
  show k0_pay1 (F := Ideal) (iblk m c 0 t) (iblk m c 1 t) (iblk m c 2 t) (iblk m c 3 t) (iblk m c 4 t) (ix2 p q)
      = leaves (V m c main_v30) (V m c main_arg2) (V m c main_v31) (V m c main_v32) (V m c main_v33)
          (((cfg0.win 5).blk t).view.emb (ix2 p q))
  refine point_eq (V m c main_v30) (V m c main_arg2) (V m c main_v31) (V m c main_v32) (V m c main_v33)
    (iblk m c 0 t) (iblk m c 1 t) (iblk m c 2 t) (iblk m c 3 t) (iblk m c 4 t) p q (((cfg0.win 5).blk t).view.emb (ix2 p q))
    ?_ ?_ ?_ ?_ ?_
  · intro k
    show V m c main_v30 (((cfg0.win 0).blk t).view.emb (ix2 p k)) = V m c main_v30 _
    refine congrArg (V m c main_v30) (funext fun a => Fin.ext ?_)
    match a with
    | ⟨0, _⟩ => show win0_0.index t (0 : Fin 2) * 8192 + 1 * p.val = win0_5.index t (0 : Fin 2) * 8192 + 1 * p.val; omega
    | ⟨1, _⟩ => show win0_0.index t (1 : Fin 2) * 64 + 1 * k.val = k.val; omega
  · funext y
    show V m c main_arg2 (((cfg0.win 1).blk t).view.emb y) = V m c main_arg2 y
    refine congrArg (V m c main_arg2) (funext fun a => Fin.ext ?_)
    match a with
    | ⟨0, _⟩ => show win0_1.index t (0 : Fin 2) * 64 + 1 * (y 0).val = (y 0).val; omega
    | ⟨1, _⟩ => show win0_1.index t (1 : Fin 2) * 256 + 1 * (y 1).val = (y 1).val; omega
  · funext y
    show V m c main_v31 (((cfg0.win 2).blk t).view.emb y) = V m c main_v31 y
    refine congrArg (V m c main_v31) (funext fun a => Fin.ext ?_)
    match a with
    | ⟨0, _⟩ => show win0_2.index t (0 : Fin 2) * 1 + 1 * (y 0).val = (y 0).val; omega
    | ⟨1, _⟩ => show win0_2.index t (1 : Fin 2) * 256 + 1 * (y 1).val = (y 1).val; omega
  · funext y
    show V m c main_v32 (((cfg0.win 3).blk t).view.emb y) = V m c main_v32 y
    refine congrArg (V m c main_v32) (funext fun a => Fin.ext ?_)
    match a with
    | ⟨0, _⟩ => show win0_3.index t (0 : Fin 2) * 1 + 1 * (y 0).val = (y 0).val; omega
    | ⟨1, _⟩ => show win0_3.index t (1 : Fin 2) * 256 + 1 * (y 1).val = (y 1).val; omega
  · funext y
    show V m c main_v33 (((cfg0.win 4).blk t).view.emb y) = V m c main_v33 y
    refine congrArg (V m c main_v33) (funext fun a => Fin.ext ?_)
    match a with
    | ⟨0, _⟩ => show win0_4.index t (0 : Fin 2) * 1 + 1 * (y 0).val = (y 0).val; omega
    | ⟨1, _⟩ => show win0_4.index t (1 : Fin 2) * 1 + 1 * (y 1).val = (y 1).val; omega

/-- An index of the output is in point t's block iff each coordinate is in the block's range on its axis. -/
theorem mem_blk (t : Fin cfg0.N) (i : S524288x1.Idx) :
    i ∈ ((cfg0.win 5).blk t).view.set ↔ ∀ a : Fin 2, win0_5.index t a * S8192x1.size a ≤ (i a).val ∧ (i a).val < win0_5.index t a * S8192x1.size a + S8192x1.size a := by
  show i ∈ ((View.whole main_v34).slice (win0_5.rect t)).set ↔ _
  rw [View.set_slice_whole, Rect.mem_set_unit]
  exact Iff.rfl

/-- The blocks tile the output: row r is in the block of the point whose block number is r / 8192. -/
theorem cover (i : S524288x1.Idx) : ∃ t : Fin cfg0.N, (cfg0.win 5).flush t = true ∧ i ∈ ((cfg0.win 5).blk t).view.set := by
  have hi0 : (i 0).val < 524288 := (i 0).isLt
  have hi1 : (i 1).val < 1 := (i 1).isLt
  obtain ⟨t, ht⟩ := idx_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 1 ≤ (i 1).val ∧ (i 1).val < win0_5.index t (1 : Fin 2) * 1 + 1; omega

/-- THE OUTPUT ARRAY after the run: the array of all leaf values, of the arrays as the region finds them. -/
theorem final (c : Dev nD) :
    (dats m 0 c).arrAt 5 cfg0.N = leaves (V m c main_v30) (V m c main_arg2) (V m c main_v31) (V m c main_v32) (V m c main_v33) :=
  (dats m 0 c).arrAt_eq_of_cover 5 _ (fun t _ => flushed_eq m c t) cover

end Cert.KernelIdeal.LeafArray

end
-- ==== Proof.RefLeaf.lean ====
/-
  The reference's leaf values, read at an index.

  The reference evaluates all 524288 leaves at once: the board matrix S (524288 × 64) times W1, plus b1 along the rows,
  tanh, times the column W2 (256 × 1), plus b2. Entry (r, 0) of that 524288 × 1 result is the leaf value of row r of S,
  with b1 read at c, W2 read at (c, 0) and b2 read at 0.
-/
import proofs.«137771_j14585708937680_1_alg».proof.Proof.Gen.ReferenceIdeal.Read
import proofs.«137771_j14585708937680_1_alg».proof.Proof.LeafSpec
import Idealize.ShloMosaic.Lib.ValueIdx

noncomputable section

open scoped BigOperators

namespace Cert.ReferenceIdeal.RefLeaf

open Cert.ReferenceIdeal Cert.ReferenceIdeal.Gen Cert.ReferenceIdeal.Read Idealize.ShloMosaic Idealize.ShloMosaic.ValueIdx Cert.LeafEval

/-- Entry (r, q) of the reference's 524288 × 1 array of leaf values is the leaf value of row r of its board matrix. -/
theorem leaves_apply (a0 : (⟨S16x8x8, .f32⟩ : BufTy).Contents (Elt Ideal)) (a1 : (⟨S8x8x8, .f32⟩ : BufTy).Contents (Elt Ideal))
    (a2 : (⟨S64x256, .f32⟩ : BufTy).Contents (Elt Ideal)) (a3 : (⟨S256, .f32⟩ : BufTy).Contents (Elt Ideal))
    (a4 : (⟨S256x1, .f32⟩ : BufTy).Contents (Elt Ideal)) (a5 : (⟨S1, .f32⟩ : BufTy).Contents (Elt Ideal))
    (r : Fin 524288) (q : Fin 1) :
    val_main_v39 (F := Ideal) a0 a1 a2 a3 a4 a5 (ix2 r q)
      = leaf (val_main_v30 (F := Ideal) a0 a1) a2 (fun c => a3 (ix1 c)) (fun c => a4 (ix2 c (0 : Fin 1))) (a5 (ix1 (0 : Fin 1))) r := by
  obtain rfl : q = 0 := Subsingleton.elim _ _
  rw [val_main_v39_apply, val_main_v36_apply, val_main_v38_apply, val_main_v37_apply]
  unfold leaf
  have e5 : idx_main_v37 (idx_main_v38 (ix2 r (0 : Fin 1))) = ix1 (0 : Fin 1) :=
    funext fun a => Fin.ext (by match a with | ⟨0, _⟩ => rfl)
  rw [e5]
  show _ + a5 (ix1 (0 : Fin 1)) = _ + a5 (ix1 (0 : Fin 1))
  refine congrArg (· + a5 (ix1 (0 : Fin 1))) (Finset.sum_congr rfl fun c _ => ?_)
  have el : lidx_main_v36 (ix2 r (0 : Fin 1)) c = ix2 r c :=
    funext fun a => Fin.ext (by match a with | ⟨0, _⟩ => rfl | ⟨1, _⟩ => rfl)
  have er : ridx_main_v36 (ix2 r (0 : Fin 1)) c = ix2 c (0 : Fin 1) :=
    funext fun a => Fin.ext (by match a with | ⟨0, _⟩ => rfl | ⟨1, _⟩ => rfl)
  rw [el, er, val_main_v35_apply, val_main_v34_apply, val_main_v31_apply, val_main_v33_apply, val_main_v32_apply]
  have e3 : idx_main_v32 (idx_main_v33 (ix2 r c)) = ix1 c :=
    funext fun a => Fin.ext (by match a with | ⟨0, _⟩ => rfl)
  rw [e3]
  refine congrArg (· * a4 (ix2 c (0 : Fin 1))) ?_
  show Ideal.tanh (_ + a3 (ix1 c)) = Ideal.tanh (_ + a3 (ix1 c))
  refine congrArg (fun z => Ideal.tanh (z + a3 (ix1 c))) (Finset.sum_congr rfl fun j _ => ?_)
  have el1 : lidx_main_v31 (ix2 r c) j = ix2 r j :=
    funext fun a => Fin.ext (by match a with | ⟨0, _⟩ => rfl | ⟨1, _⟩ => rfl)
  have er1 : ridx_main_v31 (ix2 r c) j = ix2 j c :=
    funext fun a => Fin.ext (by match a with | ⟨0, _⟩ => rfl | ⟨1, _⟩ => rfl)
  rw [el1, er1]

end Cert.ReferenceIdeal.RefLeaf

end
-- ==== Proof.KernelRun.lean ====
/-
  The kernel program's run, read back: its result is the reference's function of the arguments.

  Before the region the host builds the board matrix (the tree expansion) and lays b1, W2 and b2 out as 1 × 256, 1 × 256
  and 1 × 1: the board matrix is, operation for operation, the reference's; row 0 of the reshaped b1 is b1, row 0 of the
  reshaped W2 is W2's column, and the reshaped b2 holds b2. So the array of all leaf values the region leaves is the
  reference's 524288 × 1 array of leaf values. After the region both programs flatten that array, reshape it to
  16 × 8 × 8 × 8 × 8 × 8 and take max, min, max, min, max along the last axis: the same operations of equal arrays.
-/
import proofs.«137771_j14585708937680_1_alg».proof.Proof.Gen.KernelIdeal.Frame
import proofs.«137771_j14585708937680_1_alg».proof.Proof.Gen.ReferenceIdeal.Read
import proofs.«137771_j14585708937680_1_alg».proof.Proof.KernelArray
import proofs.«137771_j14585708937680_1_alg».proof.Proof.RefLeaf
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.LeafRun

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The host lines before the region -/

set_option maxHeartbeats 2000000 in
/-- The board matrix the region finds is the reference's board matrix of the same arguments. -/
theorem boards_eq (c : Dev nD) :
    V m c main_v30 = Cert.ReferenceIdeal.Read.val_main_v30 (F := Ideal) (m ((c : Thread nD τ).loc main_arg0)) (m ((c : Thread nD τ).loc main_arg1)) := by
  show StableHlo.after hostOps0 (fun b => m (c, b)) (Proc.devRef .tc main_v30) = _
  after_results_simp <;> rfl

/-- b1 as one row. -/
theorem bias1_eq (c : Dev nD) : V m c main_v31 = shapeCast S1x256 (m ((c : Thread nD τ).loc main_arg3)) shapeCasts_S256_S1x256 := by
  show StableHlo.after hostOps0 (fun b => m (c, b)) (Proc.devRef .tc main_v31) = _
  after_results
  rfl

/-- W2's column as one row. -/
theorem weights2_eq (c : Dev nD) : V m c main_v32 = shapeCast S1x256 (m ((c : Thread nD τ).loc main_arg4)) shapeCasts_S256x1_S1x256 := by
  show StableHlo.after hostOps0 (fun b => m (c, b)) (Proc.devRef .tc main_v32) = _
  after_results
  rfl

/-- b2 as a 1 × 1 array. -/
theorem bias2_eq (c : Dev nD) : V m c main_v33 = shapeCast S1x1 (m ((c : Thread nD τ).loc main_arg5)) shapeCasts_S1_S1x1 := by
  show StableHlo.after hostOps0 (fun b => m (c, b)) (Proc.devRef .tc main_v33) = _
  after_results
  rfl

/-! ## The region's output is the reference's array of leaf values -/

theorem leaves_eq (c : Dev nD) :
    LeafArray.leaves (V m c main_v30) (V m c main_arg2) (V m c main_v31) (V m c main_v32) (V m c main_v33)
      = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, q, rfl⟩ : ∃ (r : Fin 524288) (q : Fin 1), i = ix2 r q := ⟨i 0, i 1, eq_ix2 i⟩
  rw [Cert.ReferenceIdeal.RefLeaf.leaves_apply]
  unfold LeafArray.leaves
  rw [boards_eq, V_main_arg2, bias1_eq, weights2_eq, bias2_eq]
  have hb1 : (fun k : Fin 256 => shapeCast S1x256 (m ((c : Thread nD τ).loc main_arg3)) shapeCasts_S256_S1x256 (ix2 (0 : Fin 1) k))
      = fun k => (m ((c : Thread nD τ).loc main_arg3)) (ix1 k) := funext fun k => shapeCast_a_1a_apply _ _ 0 k
  have hw2 : (fun k : Fin 256 => shapeCast S1x256 (m ((c : Thread nD τ).loc main_arg4)) shapeCasts_S256x1_S1x256 (ix2 (0 : Fin 1) k))
      = fun k => (m ((c : Thread nD τ).loc main_arg4)) (ix2 k (0 : Fin 1)) := funext fun k => Cert.LeafEval.columnAsRow_apply _ _ k
  have hb2 : shapeCast S1x1 (m ((c : Thread nD τ).loc main_arg5)) shapeCasts_S1_S1x1 (ix2 (0 : Fin 1) (0 : Fin 1)) = (m ((c : Thread nD τ).loc main_arg5)) (ix1 (0 : Fin 1)) :=
    shapeCast_a_1a_apply _ _ 0 0
  rw [hb1, hw2, hb2]

/-! ## The host lines after the region -/

/-- What @main returns: the minimax reduction of the leaf values, as the reference computes it from the same arguments. -/
theorem result_eq (c : Dev nD) :
    Pipeline.afterTail₀ cfgs (dats m) 0 (V0 m) [hostOps1] c main_v41
      = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hK : Pipeline.withArrays spec0 c (V0 m c) (fun w => (dats m 0 c).arrAt w cfg0.N) (Proc.devRef .tc main_v34)
      = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (Pipeline.withArrays_arr spec0 launch0.win.arr_inj c _ _ 5).trans ((LeafArray.final m c).trans (leaves_eq m c))
  unfold Pipeline.afterTail₀
  show StableHlo.after hostOps1 _ (Proc.devRef .tc main_v41) = _
  after_results
  rw [hK]
  rfl

/-! ## The run -/

/-- Every weakly fair execution of the kernel program terminates with its result at the reference's function of the
    arguments, and the arguments unchanged. -/
theorem run : θ_run defs (onTc (τ := τ) (main (F := Ideal))) ⟨m, fun _ => 0, ρ⟩ fun r => ∀ c : Dev nD,
      r.2.mem ((c.tc : Thread nD τ).loc main_v41)
        = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v41 (Pipeline.mem_restRefs_of main_v41 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.LeafRun

end
-- ==== Proof.lean ====
/-
  Minimax over a game tree with a learned leaf evaluator: the tiled kernel against the whole-array reference.

  Both programs expand 16 root boards through five levels of 8 moves each into 524288 leaf boards (the same host
  operations in both), evaluate every leaf with a two-layer network,

      v = Σ_c tanh( Σ_j s_j · W1[j, c] + b1_c ) · W2[c, 0] + b2_0,

  and reduce the 16 × 8⁵ values by max, min, max, min, max from the leaves up (again the same host operations).
  They differ only in how the leaves are evaluated. The reference does it with two whole-array matrix products. The
  kernel runs 64 grid points over blocks of 8192 leaves: the first product on the matrix unit with narrowed operands
  and a zero accumulator, the second as a multiply and a sum along each row against W2 laid out as one row.
  Over the extended reals narrowing is the identity, the accumulated product is the plain sum, and a leaf's value reads
  its own row of the board matrix only; so block t of the kernel's output is block t of the reference's array of leaf
  values, the blocks tile the output, and the two programs feed equal arrays to the same reduction. No law beyond
  "the same sums of the same terms" is used, so the finiteness of the inputs is never opened.

  The kernel's frames are the generated ones; the reference's frame is its generated run with the result dropped; the
  idealization rewrote nothing.
-/
import proofs.«137771_j14585708937680_1_alg».proof.Defs
import proofs.«137771_j14585708937680_1_alg».proof.Proof.Gen.Kernel
import proofs.«137771_j14585708937680_1_alg».proof.Proof.Gen.Kernel.Skeleton
import proofs.«137771_j14585708937680_1_alg».proof.Proof.Gen.Kernel.Launch
import proofs.«137771_j14585708937680_1_alg».proof.Proof.Gen.Kernel.Points
import proofs.«137771_j14585708937680_1_alg».proof.Proof.Gen.Kernel.Frame
import proofs.«137771_j14585708937680_1_alg».proof.Proof.Gen.KernelIdeal
import proofs.«137771_j14585708937680_1_alg».proof.Proof.Gen.KernelIdeal.Skeleton
import proofs.«137771_j14585708937680_1_alg».proof.Proof.Gen.KernelIdeal.Launch
import proofs.«137771_j14585708937680_1_alg».proof.Proof.Gen.KernelIdeal.Points
import proofs.«137771_j14585708937680_1_alg».proof.Proof.Gen.KernelIdeal.Frame
import proofs.«137771_j14585708937680_1_alg».proof.Proof.Gen.ReferenceIdeal
import proofs.«137771_j14585708937680_1_alg».proof.Proof.Gen.Pre_finite_inputs
import proofs.«137771_j14585708937680_1_alg».proof.Proof.Gen.ReferenceIdeal.Run
import proofs.«137771_j14585708937680_1_alg».proof.Proof.Gen.ReferenceIdeal.Read
import proofs.«137771_j14585708937680_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's function of the arguments: the kernel by its run read back, the reference by
    its own run, from arguments that agree. -/
theorem algebraic : Cert.algebraic_KernelIdeal_ReferenceIdeal := by
  intro m ρ m' ρ' _ hagree
  refine ⟨_, Cert.KernelIdeal.LeafRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
